-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x56x56 : Shape := ⟨4, ![16, 8, 56, 56]⟩
abbrev S16x64x56x56 : Shape := ⟨4, ![16, 64, 56, 56]⟩
abbrev S_ : Shape := ⟨0, ![]⟩

class Facts : Prop where
  bcast_S_S16x8x56x56 : S_.BroadcastsInDim S16x8x56x56 (![] : Fin 0 → Fin S16x8x56x56.rank)
  reducesTo_S16x8x56x56_S_d0_1_2_3 : S16x8x56x56.ReducesTo [0, 1, 2, 3] S_
  h_S_ : 0 < S_.numel
  bcast_S_S16x64x56x56 : S_.BroadcastsInDim S16x64x56x56 (![] : Fin 0 → Fin S16x64x56x56.rank)
  reducesTo_S16x64x56x56_S_d0_1_2_3 : S16x64x56x56.ReducesTo [0, 1, 2, 3] S_

variable [Facts]

def fn {F : FTy → Type} [FloatOps F] (main_arg0 : FVec F S16x8x56x56 .f32) (main_arg1 : FVec F S16x64x56x56 .f32) : IVec S_ 1 :=
  let main_v0 : FVec F S16x8x56x56 .f32 := Host.absf main_arg0
  let main_cst : FVec F S_ .f32 := constant S_ .f32 0x7F800000#32
  let main_v1 : FVec F S16x8x56x56 .f32 := broadcastInDim S16x8x56x56 ![] bcast_S_S16x8x56x56 main_cst
  let main_v2 : IVec S16x8x56x56 1 := cmpf .olt main_v0 main_v1
  let main_c : IVec S_ 1 := constantI S_ 1 1#1
  let main_v3 : IVec S_ 1 := (fun x v => Host.reduce IntOp.andi x v reducesTo_S16x8x56x56_S_d0_1_2_3 h_S_) main_v2 main_c
  let main_v4 : FVec F S16x64x56x56 .f32 := Host.absf main_arg1
  let main_cst_0 : FVec F S_ .f32 := constant S_ .f32 0x7F800000#32
  let main_v5 : FVec F S16x64x56x56 .f32 := broadcastInDim S16x64x56x56 ![] bcast_S_S16x64x56x56 main_cst_0
  let main_v6 : IVec S16x64x56x56 1 := cmpf .olt main_v4 main_v5
  let main_c_1 : IVec S_ 1 := constantI S_ 1 1#1
  let main_v7 : IVec S_ 1 := (fun x v => Host.reduce IntOp.andi x v reducesTo_S16x64x56x56_S_d0_1_2_3 h_S_) main_v6 main_c_1
  let main_v8 : IVec S_ 1 := andi main_v3 main_v7
  main_v8
-- ==== Kernel.lean ====
abbrev S16x8x56x56 : Shape := ⟨4, ![16, 8, 56, 56]⟩
abbrev S16x64x56x56 : Shape := ⟨4, ![16, 64, 56, 56]⟩
abbrev S16x512x56x56 : Shape := ⟨4, ![16, 512, 56, 56]⟩
abbrev S1x1x56x56 : Shape := ⟨4, ![1, 1, 56, 56]⟩
abbrev S1x64x56x56 : Shape := ⟨4, ![1, 64, 56, 56]⟩

abbrev nBuf : Space → Nat
  | .hbm => 3
  | .vmem => 6
  | .smem => 0
  | _ => 0

abbrev bufTy : (tb : Table) → Fin (tcTables nBuf tb) → BufTy
  | .hbm, ⟨0, _⟩ => ⟨S16x8x56x56, .f32⟩
  | .hbm, ⟨1, _⟩ => ⟨S16x64x56x56, .f32⟩
  | .hbm, ⟨2, _⟩ => ⟨S16x512x56x56, .f32⟩
  | .local _ .vmem, ⟨0, _⟩ => ⟨S1x1x56x56, .f32⟩
  | .local _ .vmem, ⟨1, _⟩ => ⟨S1x1x56x56, .f32⟩
  | .local _ .vmem, ⟨2, _⟩ => ⟨S1x64x56x56, .f32⟩
  | .local _ .vmem, ⟨3, _⟩ => ⟨S1x64x56x56, .f32⟩
  | .local _ .vmem, ⟨4, _⟩ => ⟨S1x64x56x56, .f32⟩
  | .local _ .vmem, ⟨5, _⟩ => ⟨S1x64x56x56, .f32⟩
  | _, _ => ⟨S16x8x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x56x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x56x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x64x56x56_S1x64x56x56_0_0_0_0 : ∀ a, (![0, 0, 0, 0] : Fin 4 → Nat) a + S1x64x56x56.size a ≤ S1x64x56x56.size a
  h_S1x64x56x56 : 0 < S1x64x56x56.numel
  inb_S1x1x56x56_S1x1x56x56_0_0_0_0 : ∀ a, (![0, 0, 0, 0] : Fin 4 → Nat) a + S1x1x56x56.size a ≤ S1x1x56x56.size a
  h_S1x1x56x56 : 0 < S1x1x56x56.numel
  broadcasts_S1x1x56x56_S1x64x56x56 : S1x1x56x56.Broadcasts S1x64x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x56x56.size a ≤ S16x8x56x56.size a
  hwx0_0 : ∀ i : grid0.Coords, EltTy.bits .f32 = 32 ∨ (Rect.block (s := S16x8x56x56) S1x1x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x56x56.size a ≤ S16x64x56x56.size a
  hwx0_1 : ∀ i : grid0.Coords, EltTy.bits .f32 = 32 ∨ (Rect.block (s := S16x64x56x56) S1x64x56x56.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x56x56.size a ≤ S16x512x56x56.size a
  hwx0_2 : ∀ i : grid0.Coords, EltTy.bits .f32 = 32 ∨ (Rect.block (s := S16x512x56x56) S1x64x56x56.size (cc0_transform_2 i) (hinb0_2 i)).WholeWords (EltTy.packing .f32)

variable [Facts₀]

abbrev win0_0 : Pipeline.Window sig grid0 :=
  Pipeline.Window.ofSpec (Memref.whole main_arg0) S1x1x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x56x56.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x56x56.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x8x56x56 : Shape := ⟨4, ![16, 8, 56, 56]⟩
abbrev S16x64x56x56 : Shape := ⟨4, ![16, 64, 56, 56]⟩
abbrev S16x8x1x56x56 : Shape := ⟨5, ![16, 8, 1, 56, 56]⟩
abbrev S16x1x64x56x56 : Shape := ⟨5, ![16, 1, 64, 56, 56]⟩
abbrev S16x8x64x56x56 : Shape := ⟨5, ![16, 8, 64, 56, 56]⟩
abbrev S16x512x56x56 : Shape := ⟨4, ![16, 512, 56, 56]⟩

abbrev nBuf : Space → Nat
  | .hbm => 8
  | .vmem => 0
  | .smem => 0
  | _ => 0

abbrev bufTy : (tb : Table) → Fin (tcTables nBuf tb) → BufTy
  | .hbm, ⟨0, _⟩ => ⟨S16x8x56x56, .f32⟩
  | .hbm, ⟨1, _⟩ => ⟨S16x64x56x56, .f32⟩
  | .hbm, ⟨2, _⟩ => ⟨S16x8x1x56x56, .f32⟩
  | .hbm, ⟨3, _⟩ => ⟨S16x1x64x56x56, .f32⟩
  | .hbm, ⟨4, _⟩ => ⟨S16x8x64x56x56, .f32⟩
  | .hbm, ⟨5, _⟩ => ⟨S16x8x64x56x56, .f32⟩
  | .hbm, ⟨6, _⟩ => ⟨S16x8x64x56x56, .f32⟩
  | .hbm, ⟨7, _⟩ => ⟨S16x512x56x56, .f32⟩
  | _, _ => ⟨S16x8x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S16x8x56x56_S16x8x1x56x56_0_1_3_4 : S16x8x56x56.BroadcastsInDim S16x8x1x56x56 (![0, 1, 3, 4] : Fin 4 → Fin S16x8x1x56x56.rank)
  bcast_S16x64x56x56_S16x1x64x56x56_0_2_3_4 : S16x64x56x56.BroadcastsInDim S16x1x64x56x56 (![0, 2, 3, 4] : Fin 4 → Fin S16x1x64x56x56.rank)
  bcast_S16x8x1x56x56_S16x8x64x56x56_0_1_2_3_4 : S16x8x1x56x56.BroadcastsInDim S16x8x64x56x56 (![0, 1, 2, 3, 4] : Fin 5 → Fin S16x8x64x56x56.rank)
  bcast_S16x1x64x56x56_S16x8x64x56x56_0_1_2_3_4 : S16x1x64x56x56.BroadcastsInDim S16x8x64x56x56 (![0, 1, 2, 3, 4] : Fin 5 → Fin S16x8x64x56x56.rank)
  shapeCasts_S16x8x64x56x56_S16x512x56x56 : S16x8x64x56x56.ShapeCasts S16x512x56x56

variable [Facts₀]

class Facts : Prop extends Facts₀ where

variable [Facts]
-- ==== Proof.PairedChannelProduct.lean ====
/-
  The function both programs compute: a gate array of 8 channels and a feature array of 64 channels, over the same
  batch of 16 and the same 56 × 56 positions, are multiplied channel pair by channel pair. The result has
  8 · 64 = 512 channels; channel `j` of the result pairs gate channel `j / 64` with feature channel `j % 64`:

      result[b, j, h, w] = feature[b, j % 64, h, w] · gate[b, j / 64, h, w].

  Stated over literal shapes and for any float instance; no program is imported.
-/
import Idealize.ShloMosaic.PureOps.Ideal
import Idealize.ShloMosaic.Lib.ValueIdx

noncomputable section

namespace Cert.PairedChannelProduct

open Idealize.ShloMosaic

/-- The gate array: batch × 8 gate channels × 56 × 56. -/
abbrev SGate : Shape := ⟨4, ![16, 8, 56, 56]⟩
/-- The feature array: batch × 64 feature channels × 56 × 56. -/
abbrev SFeat : Shape := ⟨4, ![16, 64, 56, 56]⟩
/-- The result: batch × 512 paired channels × 56 × 56. -/
abbrev SPair : Shape := ⟨4, ![16, 512, 56, 56]⟩

/-- Where result index `i` reads the gate: same batch and position, gate channel `(i 1) / 64`. -/
abbrev gateAt (i : SPair.Idx) : SGate.Idx := fun a => match a with
  | ⟨0, _⟩ => ⟨(i 0).val, (i 0).isLt⟩
  | ⟨1, _⟩ => ⟨(i 1).val / 64, by have h : (i 1).val < 512 := (i 1).isLt; show (i 1).val / 64 < 8; omega⟩
  | ⟨2, _⟩ => ⟨(i 2).val, (i 2).isLt⟩
  | ⟨3, _⟩ => ⟨(i 3).val, (i 3).isLt⟩

/-- Where result index `i` reads the features: same batch and position, feature channel `(i 1) % 64`. -/
abbrev featAt (i : SPair.Idx) : SFeat.Idx := fun a => match a with
  | ⟨0, _⟩ => ⟨(i 0).val, (i 0).isLt⟩
  | ⟨1, _⟩ => ⟨(i 1).val % 64, by show (i 1).val % 64 < 64; omega⟩
  | ⟨2, _⟩ => ⟨(i 2).val, (i 2).isLt⟩
  | ⟨3, _⟩ => ⟨(i 3).val, (i 3).isLt⟩

variable {F : FTy → Type} [FloatOps F]

/-- The paired channel product: feature times gate, the channel pair read off the result's channel. -/
def pairedProduct (gate : SGate.Idx → Elt F .f32) (feat : SFeat.Idx → Elt F .f32) : SPair.Idx → Elt F .f32 :=
  fun i => FloatOps.mulf (feat (featAt i)) (gate (gateAt i))

end Cert.PairedChannelProduct

end
-- ==== Proof.KernelIsPairedProduct.lean ====
/-
  The kernel is the paired channel product. Its grid is batch × gate channel, 16 × 8 points. At point (b, c) the
  body loads the whole feature slab of batch b (64 channels) and the one gate channel c of batch b, broadcasts the
  gate over the 64 feature channels, multiplies (feature first), and stores the 64 products as block (b, c) of the
  result: channels 64·c … 64·c + 63. So the entry at result channel j = 64·c + k is feature channel k = j % 64 times
  gate channel c = j / 64 — the product's own entry, with the factors already in its order, for any float instance.
  Every result index lies in exactly the block of point (its batch, its channel / 64), so after the run the whole
  result array is the product of the two argument arrays.
-/
import proofs.«107782_j36876589203912_1_alg».proof.Proof.Gen.KernelIdeal.Value
import proofs.«107782_j36876589203912_1_alg».proof.Proof.PairedChannelProduct

noncomputable section

namespace Cert.KernelIdeal.PairedProduct

open Cert.KernelIdeal Cert.KernelIdeal.Gen Idealize.ShloMosaic Idealize.ShloMosaic.TcCoe Idealize.SL.Sem Cert.PairedChannelProduct
open Idealize.ShloMosaic.Pipeline (Dat)

variable {F : FTy → Type} [FloatOps F]
variable (m : (ℓ : Loc nD τ sig) → Buf (Elt F) ℓ) (ρ : Dev nD → PrngReg)

/-- The body's loads and its store start at the origin of their blocks. -/
theorem origin : (![0, 0, 0, 0] : Fin 4 → Nat) = fun _ => 0 := funext fun a => by fin_cases a <;> rfl

/-- What the body leaves in the result block, at block index `y`, from a gate block `g` (one channel) and a feature
    block `f` (64 channels): feature channel `y 1` times the one gate channel, at position (`y 2`, `y 3`). -/
theorem body_apply (g : Vec F S1x1x56x56 .f32) (f : Vec F S1x64x56x56 .f32) (y : S1x64x56x56.Idx) :
    out0_2 g f y = FloatOps.mulf (f (Value.ix2_0 y)) (g (Value.ix2_1 y)) := by
  unfold out0_2
  rw [Value.canon2_eq]
  simp only [View.ld_unit_zero (S := S1x64x56x56) origin, View.ld_unit_zero (S := S1x1x56x56) origin]

/-- The printed index maps over the 128 grid points: the gate block follows the result block on batch and channel;
    the feature block follows it on batch and stays at channel block 0; every block sits at position block (0, 0);
    the result's batch and channel block indices stay in range. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = 0
    ∧ win0_1.index t (2 : Fin 4) = 0 ∧ win0_1.index t (3 : Fin 4) = 0
    ∧ win0_2.index t (0 : Fin 4) ≤ 15 ∧ win0_2.index t (1 : Fin 4) ≤ 7
    ∧ win0_2.index t (2 : Fin 4) = 0 ∧ win0_2.index t (3 : Fin 4) = 0 :=
  (by decide +kernel : ∀ t : Fin grid0.N, _)

/-- Every (batch, gate channel) pair is some grid point's result block. -/
theorem idx_onto : ∀ (b : Fin 16) (ch : Fin 8), ∃ t : Fin cfg0.N, win0_2.index t = ![b.val, ch.val, 0, 0] :=
  (by decide +kernel : ∀ (b : Fin 16) (ch : Fin 8), ∃ t : Fin grid0.N, win0_2.index t = ![b.val, ch.val, 0, 0])

/-- What point `t` writes back is block `t` of the paired channel product of the two argument arrays. -/
theorem flushed_eq (c : Dev nD) (t : Fin cfg0.N) :
    (dats m 0 c).flushed 2 t = ((cfg0.win 2).blk t).view.read (Elt F) (pairedProduct (V m c main_arg0) (V m c main_arg1)) := by
  rw [Value.flushed2]
  obtain ⟨g0, g1, g2, g3, f0, f1, f2, f3, r0, r1, r2, r3⟩ := idx_facts t
  funext j
  have hj0 : (j 0).val < 1 := (j 0).isLt
  have hj1 : (j 1).val < 64 := (j 1).isLt
  have hj2 : (j 2).val < 56 := (j 2).isLt
  have hj3 : (j 3).val < 56 := (j 3).isLt
  refine (body_apply (iblk m c 0 t) (iblk m c 1 t) j).trans ?_
  show FloatOps.mulf (V m c main_arg1 (((cfg0.win 1).blk t).view.emb (Value.ix2_0 j))) (V m c main_arg0 (((cfg0.win 0).blk t).view.emb (Value.ix2_1 j)))
    = FloatOps.mulf (V m c main_arg1 (featAt (((cfg0.win 2).blk t).view.emb j))) (V m c main_arg0 (gateAt (((cfg0.win 2).blk t).view.emb j)))
  have hf : ((cfg0.win 1).blk t).view.emb (Value.ix2_0 j) = featAt (((cfg0.win 2).blk t).view.emb j) := by
    funext a; apply Fin.ext
    match a with
    | ⟨0, _⟩ => show win0_1.index t (0 : Fin 4) * 1 + 1 * 0 = win0_2.index t (0 : Fin 4) * 1 + 1 * (j 0).val; omega
    | ⟨1, _⟩ => show win0_1.index t (1 : Fin 4) * 64 + 1 * (j 1).val = (win0_2.index t (1 : Fin 4) * 64 + 1 * (j 1).val) % 64; omega
    | ⟨2, _⟩ => show win0_1.index t (2 : Fin 4) * 56 + 1 * (j 2).val = win0_2.index t (2 : Fin 4) * 56 + 1 * (j 2).val; omega
    | ⟨3, _⟩ => show win0_1.index t (3 : Fin 4) * 56 + 1 * (j 3).val = win0_2.index t (3 : Fin 4) * 56 + 1 * (j 3).val; omega
  have hg : ((cfg0.win 0).blk t).view.emb (Value.ix2_1 j) = gateAt (((cfg0.win 2).blk t).view.emb j) := by
    funext a; apply Fin.ext
    match a with
    | ⟨0, _⟩ => show win0_0.index t (0 : Fin 4) * 1 + 1 * 0 = win0_2.index t (0 : Fin 4) * 1 + 1 * (j 0).val; omega
    | ⟨1, _⟩ => show win0_0.index t (1 : Fin 4) * 1 + 1 * 0 = (win0_2.index t (1 : Fin 4) * 64 + 1 * (j 1).val) / 64; omega
    | ⟨2, _⟩ => show win0_0.index t (2 : Fin 4) * 56 + 1 * (j 2).val = win0_2.index t (2 : Fin 4) * 56 + 1 * (j 2).val; omega
    | ⟨3, _⟩ => show win0_0.index t (3 : Fin 4) * 56 + 1 * (j 3).val = win0_2.index t (3 : Fin 4) * 56 + 1 * (j 3).val; omega
  rw [hf, hg]

/-- A result index is in point `t`'s block iff each coordinate is in the block's range on its axis. -/
theorem mem_blk (t : Fin cfg0.N) (i : S16x512x56x56.Idx) :
    i ∈ ((cfg0.win 2).blk t).view.set ↔ ∀ a : Fin 4, win0_2.index t a * S1x64x56x56.size a ≤ (i a).val ∧ (i a).val < win0_2.index t a * S1x64x56x56.size a + S1x64x56x56.size a := by
  show i ∈ ((View.whole main_v0).slice (win0_2.rect t)).set ↔ _
  rw [View.set_slice_whole, Rect.mem_set_unit]
  exact Iff.rfl

/-- Every result index is in some point's block: the point of its batch and of its channel divided by 64. -/
theorem cover (i : S16x512x56x56.Idx) : ∃ t : Fin cfg0.N, (cfg0.win 2).flush t = true ∧ i ∈ ((cfg0.win 2).blk t).view.set := by
  have h0 : (i 0).val < 16 := (i 0).isLt
  have h1 : (i 1).val < 512 := (i 1).isLt
  have h2 : (i 2).val < 56 := (i 2).isLt
  have h3 : (i 3).val < 56 := (i 3).isLt
  obtain ⟨t, ht⟩ := idx_onto ⟨(i 0).val, h0⟩ ⟨(i 1).val / 64, by omega⟩
  have q0 : win0_2.index t (0 : Fin 4) = (i 0).val := congrFun ht 0
  have q1 : win0_2.index t (1 : Fin 4) = (i 1).val / 64 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 56 ≤ (i 2).val ∧ (i 2).val < win0_2.index t (2 : Fin 4) * 56 + 56; omega
  | ⟨3, _⟩ => show win0_2.index t (3 : Fin 4) * 56 ≤ (i 3).val ∧ (i 3).val < win0_2.index t (3 : Fin 4) * 56 + 56; omega

/-- After the run the result array is the paired channel product of the argument arrays. -/
theorem final (c : Dev nD) :
    (dats m 0 c).arrAt 2 cfg0.N = pairedProduct (m ((c : Thread nD τ).loc main_arg0)) (m ((c : Thread nD τ).loc main_arg1)) :=
  (dats m 0 c).arrAt_eq_of_cover 2 (pairedProduct (V m c main_arg0) (V m c main_arg1)) (fun t _ => flushed_eq m c t) cover

/-- The kernel's run: it terminates with the result array at the paired channel product of the arguments, the
    arguments unchanged. -/
theorem run : θ_run defs (onTc (τ := τ) (main (F := F))) ⟨m, fun _ => 0, ρ⟩ fun r => ∀ c : Dev nD,
      r.2.mem ((c : Thread nD τ).loc main_v0) = pairedProduct (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.PairedProduct

end
-- ==== Proof.ReferenceIsPairedProduct.lean ====
/-
  The reference is the paired channel product. It broadcasts the gate over a new feature axis and the features over a
  new gate axis, multiplies the two rank-5 arrays [16, 8, 64, 56, 56] entry by entry (gate first), and flattens the
  two channel axes row-major into one of 512. Reading the flattened array at channel `j` therefore reads the rank-5
  product at gate channel `j / 64` and feature channel `j % 64`; the two broadcasts drop the axis they added. What is
  left is the order of the two factors, and multiplication of extended reals is commutative (no finiteness is used).
-/
import proofs.«107782_j36876589203912_1_alg».proof.Proof.Gen.ReferenceIdeal.Read
import proofs.«107782_j36876589203912_1_alg».proof.Proof.PairedChannelProduct

noncomputable section

namespace Cert.ReferenceIdeal.PairedProduct

open Cert.ReferenceIdeal Cert.ReferenceIdeal.Gen Cert.ReferenceIdeal.Read Idealize.ShloMosaic Cert.PairedChannelProduct

/-- Through the flattening and the two gate broadcasts, result index `i` reads the gate at `gateAt i`: the row-major
    position of `i` in [16, 512, 56, 56], divided back out over [16, 8, 64, 56, 56], has gate channel `(i 1) / 64`. -/
theorem gate_index (i : S16x512x56x56.Idx) : idx_main_v0 (idx_main_v2 (idx_main_v5 i)) = gateAt i := by
  have h0 : (i 0).val < 16 := (i 0).isLt
  have h1 : (i 1).val < 512 := (i 1).isLt
  have h2 : (i 2).val < 56 := (i 2).isLt
  have h3 : (i 3).val < 56 := (i 3).isLt
  funext a; apply Fin.ext
  match a with
  | ⟨0, _⟩ => show ((((i 0).val * 512 + (i 1).val) * 56 + (i 2).val) * 56 + (i 3).val) / 1605632 = (i 0).val; omega
  | ⟨1, _⟩ => show ((((i 0).val * 512 + (i 1).val) * 56 + (i 2).val) * 56 + (i 3).val) / 200704 % 8 = (i 1).val / 64; omega
  | ⟨2, _⟩ => show ((((i 0).val * 512 + (i 1).val) * 56 + (i 2).val) * 56 + (i 3).val) / 56 % 56 = (i 2).val; omega
  | ⟨3, _⟩ => show ((((i 0).val * 512 + (i 1).val) * 56 + (i 2).val) * 56 + (i 3).val) % 56 = (i 3).val; omega

/-- Through the flattening and the two feature broadcasts, result index `i` reads the features at `featAt i`: feature
    channel `(i 1) % 64`. -/
theorem feat_index (i : S16x512x56x56.Idx) : idx_main_v1 (idx_main_v3 (idx_main_v5 i)) = featAt i := by
  have h0 : (i 0).val < 16 := (i 0).isLt
  have h1 : (i 1).val < 512 := (i 1).isLt
  have h2 : (i 2).val < 56 := (i 2).isLt
  have h3 : (i 3).val < 56 := (i 3).isLt
  funext a; apply Fin.ext
  match a with
  | ⟨0, _⟩ => show ((((i 0).val * 512 + (i 1).val) * 56 + (i 2).val) * 56 + (i 3).val) / 1605632 = (i 0).val; omega
  | ⟨1, _⟩ => show ((((i 0).val * 512 + (i 1).val) * 56 + (i 2).val) * 56 + (i 3).val) / 3136 % 64 = (i 1).val % 64; omega
  | ⟨2, _⟩ => show ((((i 0).val * 512 + (i 1).val) * 56 + (i 2).val) * 56 + (i 3).val) / 56 % 56 = (i 2).val; omega
  | ⟨3, _⟩ => show ((((i 0).val * 512 + (i 1).val) * 56 + (i 2).val) * 56 + (i 3).val) % 56 = (i 3).val; omega

/-- The reference's result, over the extended reals, is the paired channel product of its two arguments: index by
    index it is gate · feature where the product is feature · gate. -/
theorem reference_eq (gate : (⟨S16x8x56x56, .f32⟩ : BufTy).Contents (Elt Ideal)) (feat : (⟨S16x64x56x56, .f32⟩ : BufTy).Contents (Elt Ideal)) :
    val_main_v5 (F := Ideal) gate feat = pairedProduct (F := Ideal) gate feat := by
  funext i
  rw [val_main_v5_apply, val_main_v4_apply, val_main_v2_apply, val_main_v0_apply, val_main_v3_apply, val_main_v1_apply,
    gate_index, feat_index]
  show (gate (gateAt i) : EReal) * feat (featAt i) = feat (featAt i) * gate (gateAt i)
  exact mul_comm _ _

end Cert.ReferenceIdeal.PairedProduct

end
-- ==== Proof.lean ====
/-
  The certificate of a gated feature product. A gate array [16, 8, 56, 56] and a feature array [16, 64, 56, 56] are
  multiplied channel pair by channel pair into [16, 512, 56, 56]: result channel j pairs gate channel j / 64 with
  feature channel j % 64 (Proof/PairedChannelProduct.lean).

  The kernel walks a 16 × 8 grid (batch × gate channel) and writes, at each point, the 64 products of one gate
  channel with the batch's feature slab as one block of 64 result channels; block by block that is the product, and
  the blocks cover the result (Proof/KernelIsPairedProduct.lean). The reference broadcasts both arrays to
  [16, 8, 64, 56, 56], multiplies, and flattens the two channel axes; read at an index that is the same two entries
  multiplied in the other order (Proof/ReferenceIsPairedProduct.lean). Multiplication of extended reals is
  commutative, so the two results are equal everywhere, infinities included: the finiteness of the inputs is never used.

  The three frames are the generated runs; the idealization rewrote nothing, so its conjunct is `True`.
-/
import proofs.«107782_j36876589203912_1_alg».proof.Defs
import proofs.«107782_j36876589203912_1_alg».proof.Proof.Gen.Kernel
import proofs.«107782_j36876589203912_1_alg».proof.Proof.Gen.Kernel.Skeleton
import proofs.«107782_j36876589203912_1_alg».proof.Proof.Gen.Kernel.Launch
import proofs.«107782_j36876589203912_1_alg».proof.Proof.Gen.Kernel.Points
import proofs.«107782_j36876589203912_1_alg».proof.Proof.Gen.Kernel.Frame
import proofs.«107782_j36876589203912_1_alg».proof.Proof.Gen.KernelIdeal
import proofs.«107782_j36876589203912_1_alg».proof.Proof.Gen.KernelIdeal.Skeleton
import proofs.«107782_j36876589203912_1_alg».proof.Proof.Gen.KernelIdeal.Launch
import proofs.«107782_j36876589203912_1_alg».proof.Proof.Gen.KernelIdeal.Points
import proofs.«107782_j36876589203912_1_alg».proof.Proof.Gen.KernelIdeal.Frame
import proofs.«107782_j36876589203912_1_alg».proof.Proof.Gen.ReferenceIdeal
import proofs.«107782_j36876589203912_1_alg».proof.Proof.Gen.Pre_finite_inputs
import proofs.«107782_j36876589203912_1_alg».proof.Proof.Gen.KernelIdeal.Value
import proofs.«107782_j36876589203912_1_alg».proof.Proof.Gen.ReferenceIdeal.Run
import proofs.«107782_j36876589203912_1_alg».proof.Proof.Gen.ReferenceIdeal.Read
import proofs.«107782_j36876589203912_1_alg».proof.Proof.PairedChannelProduct
import proofs.«107782_j36876589203912_1_alg».proof.Proof.KernelIsPairedProduct
import proofs.«107782_j36876589203912_1_alg».proof.Proof.ReferenceIsPairedProduct
import Idealize.ShloMosaic.Adequacy
import Idealize.ShloMosaic.Init

noncomputable section

namespace Cert.Proof

open Idealize.ShloMosaic Idealize.ShloMosaic.TcCoe Idealize.SL.Sem Cert.PairedChannelProduct

/-- The word-level kernel runs and keeps its arguments: the generated frame. -/
theorem frame_kernel : Cert.frame_Kernel := fun m ρ _ => Cert.Kernel.Gen.frame m ρ

/-- So does the kernel over the extended reals. -/
theorem frame_kernel_ideal : Cert.frame_KernelIdeal := fun m ρ _ => Cert.KernelIdeal.Gen.frame m ρ

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories that agree on the gate and the features, the kernel and the reference
    both end with the paired channel product of those two arrays. -/
theorem algebraic : Cert.algebraic_KernelIdeal_ReferenceIdeal := by
  intro m ρ m' ρ' _ hagree
  refine ⟨fun c => pairedProduct (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.PairedProduct.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.PairedProduct.reference_eq,
    (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
